-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x10 : Shape := ⟨2, ![262144, 10]⟩
abbrev S10x10 : Shape := ⟨2, ![10, 10]⟩
abbrev S_ : Shape := ⟨0, ![]⟩

class Facts : Prop where
  bcast_S_S262144x10 : S_.BroadcastsInDim S262144x10 (![] : Fin 0 → Fin S262144x10.rank)
  reducesTo_S262144x10_S_d0_1 : S262144x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn_part1 {F : FTy → Type} [FloatOps F] (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  main_v18

def fn {F : FTy → Type} [FloatOps F] (main_arg0 : FVec F S262144x10 .f32) (main_arg1 : FVec F S262144x10 .f32) (main_arg2 : FVec F S10x10 .f32) (main_arg3 : FVec F S10x10 .f32) : IVec S_ 1 :=
  let main_v0 : FVec F S262144x10 .f32 := Host.absf main_arg0
  let main_cst : FVec F S_ .f32 := constant S_ .f32 0x7F800000#32
  let main_v1 : FVec F S262144x10 .f32 := broadcastInDim S262144x10 ![] bcast_S_S262144x10 main_cst
  let main_v2 : IVec S262144x10 1 := cmpf .olt main_v0 main_v1
  let main_c : IVec S_ 1 := constantI S_ 1 1#1
  let main_v3 : IVec S_ 1 := (fun x v => Host.reduce IntOp.andi x v reducesTo_S262144x10_S_d0_1 h_S_) main_v2 main_c
  let main_v4 : FVec F S262144x10 .f32 := Host.absf main_arg1
  let main_cst_0 : FVec F S_ .f32 := constant S_ .f32 0x7F800000#32
  let main_v5 : FVec F S262144x10 .f32 := broadcastInDim S262144x10 ![] bcast_S_S262144x10 main_cst_0
  let main_v6 : IVec S262144x10 1 := cmpf .olt main_v4 main_v5
  let main_c_1 : IVec S_ 1 := constantI S_ 1 1#1
  let main_v7 : IVec S_ 1 := (fun x v => Host.reduce IntOp.andi x v reducesTo_S262144x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_v13 main_v16
-- ==== Kernel.lean ====
abbrev S262144x10 : Shape := ⟨2, ![262144, 10]⟩
abbrev S10x10 : Shape := ⟨2, ![10, 10]⟩
abbrev S10x100 : Shape := ⟨2, ![10, 100]⟩
abbrev S100x19 : Shape := ⟨2, ![100, 19]⟩
abbrev S_ : Shape := ⟨0, ![]⟩
abbrev S10 : Shape := ⟨1, ![10]⟩
abbrev S10x1 : Shape := ⟨2, ![10, 1]⟩
abbrev S262144x19 : Shape := ⟨2, ![262144, 19]⟩
abbrev S4096x10 : Shape := ⟨2, ![4096, 10]⟩
abbrev S4096x19 : Shape := ⟨2, ![4096, 19]⟩
abbrev S4096x100 : Shape := ⟨2, ![4096, 100]⟩
abbrev S4096 : Shape := ⟨1, ![4096]⟩
abbrev S4096x1 : Shape := ⟨2, ![4096, 1]⟩

abbrev nBuf : Space → Nat
  | .hbm => 54
  | .vmem => 11
  | .smem => 0
  | _ => 0

abbrev bufTy : (tb : Table) → Fin (tcTables nBuf tb) → BufTy
  | .hbm, ⟨0, _⟩ => ⟨S262144x10, .f32⟩
  | .hbm, ⟨1, _⟩ => ⟨S262144x10, .f32⟩
  | .hbm, ⟨2, _⟩ => ⟨S10x10, .f32⟩
  | .hbm, ⟨3, _⟩ => ⟨S10x10, .f32⟩
  | .hbm, ⟨4, _⟩ => ⟨S10x100, .f32⟩
  | .hbm, ⟨5, _⟩ => ⟨S10x100, .f32⟩
  | .hbm, ⟨6, _⟩ => ⟨S100x19, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S_, .f32⟩
  | .hbm, ⟨11, _⟩ => ⟨S10, .f32⟩
  | .hbm, ⟨12, _⟩ => ⟨S10x1, .f32⟩
  | .hbm, ⟨13, _⟩ => ⟨S10x10, .f32⟩
  | .hbm, ⟨14, _⟩ => ⟨S10x10, .f32⟩
  | .hbm, ⟨15, _⟩ => ⟨S10x1, .f32⟩
  | .hbm, ⟨16, _⟩ => ⟨S_, .f32⟩
  | .hbm, ⟨17, _⟩ => ⟨S10x1, .f32⟩
  | .hbm, ⟨18, _⟩ => ⟨S10x1, .f32⟩
  | .hbm, ⟨19, _⟩ => ⟨S10x10, .f32⟩
  | .hbm, ⟨20, _⟩ => ⟨S10x10, .f32⟩
  | .hbm, ⟨21, _⟩ => ⟨S_, .f32⟩
  | .hbm, ⟨22, _⟩ => ⟨S10, .f32⟩
  | .hbm, ⟨23, _⟩ => ⟨S10x1, .f32⟩
  | .hbm, ⟨24, _⟩ => ⟨S_, .f32⟩
  | .hbm, ⟨25, _⟩ => ⟨S10x1, .f32⟩
  | .hbm, ⟨26, _⟩ => ⟨S10x1, .f32⟩
  | .hbm, ⟨27, _⟩ => ⟨S10x10, .f32⟩
  | .hbm, ⟨28, _⟩ => ⟨S10x10, .f32⟩
  | .hbm, ⟨29, _⟩ => ⟨S10x10, .f32⟩
  | .hbm, ⟨30, _⟩ => ⟨S_, .f32⟩
  | .hbm, ⟨31, _⟩ => ⟨S10, .f32⟩
  | .hbm, ⟨32, _⟩ => ⟨S10x1, .f32⟩
  | .hbm, ⟨33, _⟩ => ⟨S_, .f32⟩
  | .hbm, ⟨34, _⟩ => ⟨S10, .f32⟩
  | .hbm, ⟨35, _⟩ => ⟨S10x1, .f32⟩
  | .hbm, ⟨36, _⟩ => ⟨S10x10, .f32⟩
  | .hbm, ⟨37, _⟩ => ⟨S10x10, .f32⟩
  | .hbm, ⟨38, _⟩ => ⟨S10x1, .f32⟩
  | .hbm, ⟨39, _⟩ => ⟨S_, .f32⟩
  | .hbm, ⟨40, _⟩ => ⟨S10x1, .f32⟩
  | .hbm, ⟨41, _⟩ => ⟨S10x1, .f32⟩
  | .hbm, ⟨42, _⟩ => ⟨S10x10, .f32⟩
  | .hbm, ⟨43, _⟩ => ⟨S10x10, .f32⟩
  | .hbm, ⟨44, _⟩ => ⟨S_, .f32⟩
  | .hbm, ⟨45, _⟩ => ⟨S10, .f32⟩
  | .hbm, ⟨46, _⟩ => ⟨S10x1, .f32⟩
  | .hbm, ⟨47, _⟩ => ⟨S_, .f32⟩
  | .hbm, ⟨48, _⟩ => ⟨S10x1, .f32⟩
  | .hbm, ⟨49, _⟩ => ⟨S10x1, .f32⟩
  | .hbm, ⟨50, _⟩ => ⟨S10x10, .f32⟩
  | .hbm, ⟨51, _⟩ => ⟨S10x10, .f32⟩
  | .hbm, ⟨52, _⟩ => ⟨S10x10, .f32⟩
  | .hbm, ⟨53, _⟩ => ⟨S262144x19, .f32⟩
  | .local _ .vmem, ⟨0, _⟩ => ⟨S4096x10, .f32⟩
  | .local _ .vmem, ⟨1, _⟩ => ⟨S4096x10, .f32⟩
  | .local _ .vmem, ⟨2, _⟩ => ⟨S4096x10, .f32⟩
  | .local _ .vmem, ⟨3, _⟩ => ⟨S4096x10, .f32⟩
  | .local _ .vmem, ⟨4, _⟩ => ⟨S10x10, .f32⟩
  | .local _ .vmem, ⟨5, _⟩ => ⟨S10x10, .f32⟩
  | .local _ .vmem, ⟨6, _⟩ => ⟨S10x100, .f32⟩
  | .local _ .vmem, ⟨7, _⟩ => ⟨S10x100, .f32⟩
  | .local _ .vmem, ⟨8, _⟩ => ⟨S100x19, .f32⟩
  | .local _ .vmem, ⟨9, _⟩ => ⟨S4096x19, .f32⟩
  | .local _ .vmem, ⟨10, _⟩ => ⟨S4096x19, .f32⟩
  | _, _ => ⟨S262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x19 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  transposes_S10x10_S10x10_1_0 : S10x10.Transposes [1, 0] S10x10
  inb_S4096x10_S4096x10_0_0 : ∀ a, (![0, 0] : Fin 2 → Nat) a + S4096x10.size a ≤ S4096x10.size a
  h_S4096x10 : 0 < S4096x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S10x100_S10x100_0_0 : ∀ a, (![0, 0] : Fin 2 → Nat) a + S10x100.size a ≤ S10x100.size a
  h_S10x100 : 0 < S10x100.numel
  inb_S100x19_S100x19_0_0 : ∀ a, (![0, 0] : Fin 2 → Nat) a + S100x19.size a ≤ S100x19.size a
  h_S100x19 : 0 < S100x19.numel
  reduces_S4096x19_S4096 : S4096x19.Reduces [1] S4096
  shapeCasts_S4096_S4096x1 : S4096.ShapeCasts S4096x1
  broadcasts_S4096x1_S4096x19 : S4096x1.Broadcasts S4096x19
  inb_S4096x19_S4096x19_0_0 : ∀ a, (![0, 0] : Fin 2 → Nat) a + S4096x19.size a ≤ S4096x19.size a
  h_S4096x19 : 0 < S4096x19.numel
  dot_S4096x10_S10x10_S4096x10_1_0_0_1_n_n_wf : DotDims.WF S4096x10 S10x10 S4096x10 [1] [0] [0] [1] [] []
  dot_S4096x10_S10x100_S4096x100_1_0_0_1_n_n_wf : DotDims.WF S4096x10 S10x100 S4096x100 [1] [0] [0] [1] [] []
  dot_S4096x100_S100x19_S4096x19_1_0_0_1_n_n_wf : DotDims.WF S4096x100 S100x19 S4096x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S262144x10.size a
  hwx0_0 : ∀ i : grid0.Coords, EltTy.bits .f32 = 32 ∨ (Rect.block (s := S262144x10) S4096x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x10.size a ≤ S262144x10.size a
  hwx0_1 : ∀ i : grid0.Coords, EltTy.bits .f32 = 32 ∨ (Rect.block (s := S262144x10) S4096x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x100.size a ≤ S10x100.size a
  hwx0_4 : ∀ i : grid0.Coords, EltTy.bits .f32 = 32 ∨ (Rect.block (s := S10x100) S10x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x100.size a ≤ S10x100.size a
  hwx0_5 : ∀ i : grid0.Coords, EltTy.bits .f32 = 32 ∨ (Rect.block (s := S10x100) S10x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x19.size a ≤ S100x19.size a
  hwx0_6 : ∀ i : grid0.Coords, EltTy.bits .f32 = 32 ∨ (Rect.block (s := S100x19) S100x19.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x19.size a ≤ S262144x19.size a
  hwx0_7 : ∀ i : grid0.Coords, EltTy.bits .f32 = 32 ∨ (Rect.block (s := S262144x19) S4096x19.size (cc0_transform_7 i) (hinb0_7 i)).WholeWords (EltTy.packing .f32)

variable [Facts₀]

def dot_S4096x10_S10x10_S4096x10_1_0_0_1_n_n : DotDims S4096x10 S10x10 S4096x10 where
  lhsContracting := [1]
  rhsContracting := [0]
  lhsNonContracting := [0]
  rhsNonContracting := [1]
  lhsBatch := []
  rhsBatch := []
  wf := dot_S4096x10_S10x10_S4096x10_1_0_0_1_n_n_wf
def dot_S4096x10_S10x100_S4096x100_1_0_0_1_n_n : DotDims S4096x10 S10x100 S4096x100 where
  lhsContracting := [1]
  rhsContracting := [0]
  lhsNonContracting := [0]
  rhsNonContracting := [1]
  lhsBatch := []
  rhsBatch := []
  wf := dot_S4096x10_S10x100_S4096x100_1_0_0_1_n_n_wf
def dot_S4096x100_S100x19_S4096x19_1_0_0_1_n_n : DotDims S4096x100 S100x19 S4096x19 where
  lhsContracting := [1]
  rhsContracting := [0]
  lhsNonContracting := [0]
  rhsNonContracting := [1]
  lhsBatch := []
  rhsBatch := []
  wf := dot_S4096x100_S100x19_S4096x19_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S10x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_0) S10x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_1) S100x19.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S4096x19.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x10 : Shape := ⟨2, ![262144, 10]⟩
abbrev S10x10 : Shape := ⟨2, ![10, 10]⟩
abbrev S_ : Shape := ⟨0, ![]⟩
abbrev S10 : Shape := ⟨1, ![10]⟩
abbrev S10x1 : Shape := ⟨2, ![10, 1]⟩
abbrev S262144x10x1 : Shape := ⟨3, ![262144, 10, 1]⟩
abbrev S262144x1x10 : Shape := ⟨3, ![262144, 1, 10]⟩
abbrev S262144x10x10 : Shape := ⟨3, ![262144, 10, 10]⟩
abbrev S1x10 : Shape := ⟨2, ![1, 10]⟩
abbrev S100 : Shape := ⟨1, ![100]⟩
abbrev S100x1 : Shape := ⟨2, ![100, 1]⟩
abbrev S1x19 : Shape := ⟨2, ![1, 19]⟩
abbrev S100x19 : Shape := ⟨2, ![100, 19]⟩
abbrev S262144x100 : Shape := ⟨2, ![262144, 100]⟩
abbrev S262144x19 : Shape := ⟨2, ![262144, 19]⟩
abbrev S262144 : Shape := ⟨1, ![262144]⟩
abbrev S262144x1 : Shape := ⟨2, ![262144, 1]⟩

abbrev nBuf : Space → Nat
  | .hbm => 100
  | .vmem => 0
  | .smem => 0
  | _ => 0

abbrev bufTy : (tb : Table) → Fin (tcTables nBuf tb) → BufTy
  | .hbm, ⟨0, _⟩ => ⟨S262144x10, .f32⟩
  | .hbm, ⟨1, _⟩ => ⟨S262144x10, .f32⟩
  | .hbm, ⟨2, _⟩ => ⟨S10x10, .f32⟩
  | .hbm, ⟨3, _⟩ => ⟨S10x10, .f32⟩
  | .hbm, ⟨4, _⟩ => ⟨S_, .f32⟩
  | .hbm, ⟨5, _⟩ => ⟨S10, .f32⟩
  | .hbm, ⟨6, _⟩ => ⟨S10x1, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S10x10, .f32⟩
  | .hbm, ⟨11, _⟩ => ⟨S10x10, .f32⟩
  | .hbm, ⟨12, _⟩ => ⟨S10x1, .f32⟩
  | .hbm, ⟨13, _⟩ => ⟨S_, .f32⟩
  | .hbm, ⟨14, _⟩ => ⟨S10x1, .f32⟩
  | .hbm, ⟨15, _⟩ => ⟨S10x1, .f32⟩
  | .hbm, ⟨16, _⟩ => ⟨S10x10, .f32⟩
  | .hbm, ⟨17, _⟩ => ⟨S10x10, .f32⟩
  | .hbm, ⟨18, _⟩ => ⟨S_, .f32⟩
  | .hbm, ⟨19, _⟩ => ⟨S10, .f32⟩
  | .hbm, ⟨20, _⟩ => ⟨S10x1, .f32⟩
  | .hbm, ⟨21, _⟩ => ⟨S_, .f32⟩
  | .hbm, ⟨22, _⟩ => ⟨S10x1, .f32⟩
  | .hbm, ⟨23, _⟩ => ⟨S10x1, .f32⟩
  | .hbm, ⟨24, _⟩ => ⟨S10x10, .f32⟩
  | .hbm, ⟨25, _⟩ => ⟨S10x10, .f32⟩
  | .hbm, ⟨26, _⟩ => ⟨S10x10, .f32⟩
  | .hbm, ⟨27, _⟩ => ⟨S262144x10, .f32⟩
  | .hbm, ⟨28, _⟩ => ⟨S_, .f32⟩
  | .hbm, ⟨29, _⟩ => ⟨S10, .f32⟩
  | .hbm, ⟨30, _⟩ => ⟨S10x1, .f32⟩
  | .hbm, ⟨31, _⟩ => ⟨S_, .f32⟩
  | .hbm, ⟨32, _⟩ => ⟨S10, .f32⟩
  | .hbm, ⟨33, _⟩ => ⟨S10x1, .f32⟩
  | .hbm, ⟨34, _⟩ => ⟨S10x10, .f32⟩
  | .hbm, ⟨35, _⟩ => ⟨S10x10, .f32⟩
  | .hbm, ⟨36, _⟩ => ⟨S10x1, .f32⟩
  | .hbm, ⟨37, _⟩ => ⟨S_, .f32⟩
  | .hbm, ⟨38, _⟩ => ⟨S10x1, .f32⟩
  | .hbm, ⟨39, _⟩ => ⟨S10x1, .f32⟩
  | .hbm, ⟨40, _⟩ => ⟨S10x10, .f32⟩
  | .hbm, ⟨41, _⟩ => ⟨S10x10, .f32⟩
  | .hbm, ⟨42, _⟩ => ⟨S_, .f32⟩
  | .hbm, ⟨43, _⟩ => ⟨S10, .f32⟩
  | .hbm, ⟨44, _⟩ => ⟨S10x1, .f32⟩
  | .hbm, ⟨45, _⟩ => ⟨S_, .f32⟩
  | .hbm, ⟨46, _⟩ => ⟨S10x1, .f32⟩
  | .hbm, ⟨47, _⟩ => ⟨S10x1, .f32⟩
  | .hbm, ⟨48, _⟩ => ⟨S10x10, .f32⟩
  | .hbm, ⟨49, _⟩ => ⟨S10x10, .f32⟩
  | .hbm, ⟨50, _⟩ => ⟨S10x10, .f32⟩
  | .hbm, ⟨51, _⟩ => ⟨S262144x10, .f32⟩
  | .hbm, ⟨52, _⟩ => ⟨S262144x10x1, .f32⟩
  | .hbm, ⟨53, _⟩ => ⟨S262144x1x10, .f32⟩
  | .hbm, ⟨54, _⟩ => ⟨S262144x10x10, .f32⟩
  | .hbm, ⟨55, _⟩ => ⟨S262144x10x10, .f32⟩
  | .hbm, ⟨56, _⟩ => ⟨S262144x10x10, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S262144x10x10, .f32⟩
  | .hbm, ⟨61, _⟩ => ⟨S262144x10x10, .f32⟩
  | .hbm, ⟨62, _⟩ => ⟨S_, .f32⟩
  | .hbm, ⟨63, _⟩ => ⟨S262144x10x10, .f32⟩
  | .hbm, ⟨64, _⟩ => ⟨S262144x10x10, .f32⟩
  | .hbm, ⟨65, _⟩ => ⟨S_, .f32⟩
  | .hbm, ⟨66, _⟩ => ⟨S262144x10x10, .f32⟩
  | .hbm, ⟨67, _⟩ => ⟨S262144x10x10, .f32⟩
  | .hbm, ⟨68, _⟩ => ⟨S_, .f32⟩
  | .hbm, ⟨69, _⟩ => ⟨S262144x10x10, .f32⟩
  | .hbm, ⟨70, _⟩ => ⟨S262144x10x10, .f32⟩
  | .hbm, ⟨71, _⟩ => ⟨S262144x10x10, .f32⟩
  | .hbm, ⟨72, _⟩ => ⟨S10, .i32⟩
  | .hbm, ⟨73, _⟩ => ⟨S10x1, .i32⟩
  | .hbm, ⟨74, _⟩ => ⟨S10, .i32⟩
  | .hbm, ⟨75, _⟩ => ⟨S1x10, .i32⟩
  | .hbm, ⟨76, _⟩ => ⟨S10x10, .i32⟩
  | .hbm, ⟨77, _⟩ => ⟨S10x10, .i32⟩
  | .hbm, ⟨78, _⟩ => ⟨S10x10, .i32⟩
  | .hbm, ⟨79, _⟩ => ⟨S100, .i32⟩
  | .hbm, ⟨80, _⟩ => ⟨S100x1, .i32⟩
  | .hbm, ⟨81, _⟩ => ⟨S1x19, .i32⟩
  | .hbm, ⟨82, _⟩ => ⟨S100x19, .i32⟩
  | .hbm, ⟨83, _⟩ => ⟨S100x19, .i32⟩
  | .hbm, ⟨84, _⟩ => ⟨S100x19, .i1⟩
  | .hbm, ⟨85, _⟩ => ⟨S100x19, .f32⟩
  | .hbm, ⟨86, _⟩ => ⟨S262144x100, .f32⟩
  | .hbm, ⟨87, _⟩ => ⟨S262144x19, .f32⟩
  | .hbm, ⟨88, _⟩ => ⟨S262144x19, .f32⟩
  | .hbm, ⟨89, _⟩ => ⟨S_, .f32⟩
  | .hbm, ⟨90, _⟩ => ⟨S262144x19, .f32⟩
  | .hbm, ⟨91, _⟩ => ⟨S262144x19, .f32⟩
  | .hbm, ⟨92, _⟩ => ⟨S_, .f32⟩
  | .hbm, ⟨93, _⟩ => ⟨S262144, .f32⟩
  | .hbm, ⟨94, _⟩ => ⟨S262144x1, .f32⟩
  | .hbm, ⟨95, _⟩ => ⟨S_, .f32⟩
  | .hbm, ⟨96, _⟩ => ⟨S262144x1, .f32⟩
  | .hbm, ⟨97, _⟩ => ⟨S262144x1, .f32⟩
  | .hbm, ⟨98, _⟩ => ⟨S262144x19, .f32⟩
  | .hbm, ⟨99, _⟩ => ⟨S262144x19, .f32⟩
  | _, _ => ⟨S262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  transposes_S10x10_S10x10_1_0 : S10x10.Transposes [1, 0] S10x10
  bcast_S262144x10_S262144x10x1_0_1 : S262144x10.BroadcastsInDim S262144x10x1 (![0, 1] : Fin 2 → Fin S262144x10x1.rank)
  bcast_S262144x10_S262144x1x10_0_2 : S262144x10.BroadcastsInDim S262144x1x10 (![0, 2] : Fin 2 → Fin S262144x1x10.rank)
  bcast_S262144x10x1_S262144x10x10_0_1_2 : S262144x10x1.BroadcastsInDim S262144x10x10 (![0, 1, 2] : Fin 3 → Fin S262144x10x10.rank)
  bcast_S262144x1x10_S262144x10x10_0_1_2 : S262144x1x10.BroadcastsInDim S262144x10x10 (![0, 1, 2] : Fin 3 → Fin S262144x10x10.rank)
  bcast_S_S262144x10x10 : S_.BroadcastsInDim S262144x10x10 (![] : Fin 0 → Fin S262144x10x10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  shapeCasts_S10x10_S100 : S10x10.ShapeCasts S100
  bcast_S100_S100x1_0 : S100.BroadcastsInDim S100x1 (![0] : Fin 1 → Fin S100x1.rank)
  bcast_S100x1_S100x19_0_1 : S100x1.BroadcastsInDim S100x19 (![0, 1] : Fin 2 → Fin S100x19.rank)
  bcast_S1x19_S100x19_0_1 : S1x19.BroadcastsInDim S100x19 (![0, 1] : Fin 2 → Fin S100x19.rank)
  shapeCasts_S262144x10x10_S262144x100 : S262144x10x10.ShapeCasts S262144x100
  bcast_S_S262144x19 : S_.BroadcastsInDim S262144x19 (![] : Fin 0 → Fin S262144x19.rank)
  reducesTo_S262144x19_S262144_d1 : S262144x19.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x19_0_1 : S262144x1.BroadcastsInDim S262144x19 (![0, 1] : Fin 2 → Fin S262144x19.rank)
  dot_S262144x10_S10x10_S262144x10_1_0_0_1_n_n_wf : DotDims.WF S262144x10 S10x10 S262144x10 [1] [0] [0] [1] [] []
  dot_S262144x100_S100x19_S262144x19_1_0_0_1_n_n_wf : DotDims.WF S262144x100 S100x19 S262144x19 [1] [0] [0] [1] [] []

variable [Facts₀]

def dot_S262144x10_S10x10_S262144x10_1_0_0_1_n_n : DotDims S262144x10 S10x10 S262144x10 where
  lhsContracting := [1]
  rhsContracting := [0]
  lhsNonContracting := [0]
  rhsNonContracting := [1]
  lhsBatch := []
  rhsBatch := []
  wf := dot_S262144x10_S10x10_S262144x10_1_0_0_1_n_n_wf
def dot_S262144x100_S100x19_S262144x19_1_0_0_1_n_n : DotDims S262144x100 S100x19 S262144x19 where
  lhsContracting := [1]
  rhsContracting := [0]
  lhsNonContracting := [0]
  rhsNonContracting := [1]
  lhsBatch := []
  rhsBatch := []
  wf := dot_S262144x100_S100x19_S262144x19_1_0_0_1_n_n_wf

class Facts : Prop extends Facts₀ where

variable [Facts]
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RowSpec.lean ====
/-
  One output row as a function of one row of each probability table and of the two leaf matrices.

  For a row x of the first table and a row y of the second (ten entries each) and leaf matrices a, b (10 × 10):
    leaf x a i      = ∑ₖ x k · a k i                    (a digit's leaf probability)
    cell u v        = log (1 − clamp (min u v) + ε₁₂)    (the log of the complement of the graded AND of a pair)
    smoothOr l₁ l₂ q = 1 − exp (∑_c cell (l₁ (c / 10)) (l₂ (c % 10)) · [c / 10 + c % 10 = q])
    out l₁ l₂ q     = smoothOr q / (∑_q' smoothOr q' + ε₉)
  with c ranging over the hundred digit pairs (c = 10 i + j) and q over the nineteen sums. The clamp is
  min hi (max lo ·); the literals are kept as their f32 patterns.

  Also here: the two laws of sums in the extended reals that the rest uses. A sum against an indicator column
  picks one term (0 · x = 0 and x + 0 = x hold for every extended real, infinite ones included), and a sum over
  the digit pairs against the pair's own indicator is the same whichever way the indicator is spelt.
-/
import Idealize.ShloMosaic.PureOps.Ideal.Laws
import Idealize.ShloMosaic.Lib.IdealHost

noncomputable section

namespace Cert.Row

open Idealize.ShloMosaic

/-- The leading digit of a pair index c = 10 i + j. -/
def hiD (c : Fin 100) : Fin 10 := ⟨c.val / 10, by have := c.isLt; omega⟩
/-- The trailing digit of a pair index c = 10 i + j. -/
def loD (c : Fin 100) : Fin 10 := ⟨c.val % 10, by omega⟩

/-- A row of a table through a leaf matrix: ∑ₖ x k · a k i. -/
def leaf (x : Fin 10 → EReal) (a : Fin 10 → Fin 10 → EReal) (i : Fin 10) : EReal := ∑ k : Fin 10, x k * a k i

/-- log (1 − min hi (max lo (min u v)) + ε₁₂). -/
def cell (u v : EReal) : EReal :=
  Ideal.log (Ideal.ofBits .f32 0x3F800000#32
      - min (Ideal.ofBits .f32 0x3F7FFFEF#32) (max (Ideal.ofBits .f32 0x358637BD#32) (min u v))
    + Ideal.ofBits .f32 0x2B8CBCCC#32)

/-- The indicator of "the digits of c sum to q". -/
def ind (c : Fin 100) (q : Fin 19) : EReal := if c.val / 10 + c.val % 10 = q.val then 1 else 0

/-- 1 − exp of the sum of the cells whose digits sum to q. -/
def smoothOr (l₁ l₂ : Fin 10 → EReal) (q : Fin 19) : EReal :=
  Ideal.ofBits .f32 0x3F800000#32 - Ideal.exp (∑ c : Fin 100, cell (l₁ (hiD c)) (l₂ (loD c)) * ind c q)

/-- The row, normalised by its sum plus ε₉. -/
def out (l₁ l₂ : Fin 10 → EReal) (q : Fin 19) : EReal :=
  Ideal.div (smoothOr l₁ l₂ q) (∑ q' : Fin 19, smoothOr l₁ l₂ q' + Ideal.ofBits .f32 0x3089705F#32)

/-- A sum against the indicator of one index is the term at that index, in the extended reals. -/
theorem sum_mul_indicator {n : ℕ} (f : Fin n → EReal) (P : Fin n → Prop) [DecidablePred P] (i : Fin n)
    (hP : ∀ a, P a ↔ a = i) : ∑ a : Fin n, f a * (if P a then (1 : EReal) else 0) = f i := by
  have : ∀ a : Fin n, f a * (if P a then (1 : EReal) else 0) = if a = i then f a else 0 := fun a => by
    by_cases h : a = i
    · rw [if_pos ((hP a).mpr h), if_pos h, mul_one]
    · rw [if_neg (fun hp => h ((hP a).mp hp)), if_neg h, mul_zero]
  rw [Finset.sum_congr rfl fun a _ => this a, Finset.sum_ite_eq' Finset.univ i f, if_pos (Finset.mem_univ i)]

/-- The leading-digit selector column: ∑ₐ f a · [a = c / 10] = f (c / 10). -/
theorem sum_sel_hi (f : Fin 10 → EReal) (c : Fin 100) :
    ∑ a : Fin 10, f a * (if a.val = c.val / 10 then (1 : EReal) else 0) = f (hiD c) :=
  sum_mul_indicator f (fun a => a.val = c.val / 10) (hiD c) fun a => ⟨fun h => Fin.ext h, fun h => by rw [h]; rfl⟩

/-- The trailing-digit selector column: ∑ₐ f a · [a = c % 10] = f (c % 10). -/
theorem sum_sel_lo (f : Fin 10 → EReal) (c : Fin 100) :
    ∑ a : Fin 10, f a * (if a.val = c.val % 10 then (1 : EReal) else 0) = f (loD c) :=
  sum_mul_indicator f (fun a => a.val = c.val % 10) (loD c) fun a => ⟨fun h => Fin.ext h, fun h => by rw [h]; rfl⟩

end Cert.Row

end
-- ==== Proof.KPay.lean ====
/-
  The kernel body's result at one entry (p, q) of its 4096 × 19 block, at the ideal values.

  The body forms, of the two 4096 × 10 table blocks X₀, X₁ and the leaf matrices A₁, A₂,
    L₁ = X₀ · A₁,  L₂ = X₁ · A₂                      (4096 × 10)
    R₁ = L₁ · E₁,  R₂ = L₂ · E₂                      (4096 × 100: E₁, E₂ are 0/1 selector matrices)
    C  = log (1 − clamp (min R₁ R₂) + ε₁₂)            (4096 × 100)
    Y  = 1 − exp (C · M)                              (4096 × 19: M is the 0/1 matrix "digits of c sum to q")
    Y / (rowsum Y + ε₉).
  When E₁ (a, c) = [a = c / 10], E₂ (a, c) = [a = c % 10] and M (c, q) = [c / 10 + c % 10 = q], the selector products
  pick single entries, R₁ (p, c) = L₁ (p, c / 10) and R₂ (p, c) = L₂ (p, c % 10), and the entry is `Row.out` of the
  two leaf rows of p.
-/
import proofs.«180273_j52192442581023_1_alg».proof.Proof.Gen.KernelIdeal.Skeleton
import proofs.«180273_j52192442581023_1_alg».proof.Proof.LibPlainDot
import proofs.«180273_j52192442581023_1_alg».proof.Proof.RowSpec
import Idealize.ShloMosaic.Lib.Pipeline.Value

noncomputable section

namespace Cert.KernelIdeal.Pay

open Cert.KernelIdeal Cert.KernelIdeal.Gen Idealize.ShloMosaic Idealize.ShloMosaic.ValueIdx

/-! ## The three matrix products, read at an entry -/

theorem lhsA_0 (i : S4096x10.Idx) (q : dot_S4096x10_S10x10_S4096x10_1_0_0_1_n_n.contr.Idx) :
    (dot_S4096x10_S10x10_S4096x10_1_0_0_1_n_n.lhsIdx i q 0).val = (i 0).val := by
  unfold DotDims.lhsIdx
  rw [dif_neg (show ¬(0 : Fin S4096x10.rank) ∈ dot_S4096x10_S10x10_S4096x10_1_0_0_1_n_n.lhsBatch by decide), dif_pos (show (0 : Fin S4096x10.rank) ∈ dot_S4096x10_S10x10_S4096x10_1_0_0_1_n_n.lhsNonContracting by decide)]
  rfl
theorem lhsA_1 (i : S4096x10.Idx) (q : dot_S4096x10_S10x10_S4096x10_1_0_0_1_n_n.contr.Idx) :
    (dot_S4096x10_S10x10_S4096x10_1_0_0_1_n_n.lhsIdx i q 1).val = (q ⟨0, by decide⟩).val :=
  dot_S4096x10_S10x10_S4096x10_1_0_0_1_n_n.lhsIdx_val_of_single rfl i q
theorem rhsA_0 (i : S4096x10.Idx) (q : dot_S4096x10_S10x10_S4096x10_1_0_0_1_n_n.contr.Idx) :
    (dot_S4096x10_S10x10_S4096x10_1_0_0_1_n_n.rhsIdx i q 0).val = (q ⟨0, by decide⟩).val :=
  dot_S4096x10_S10x10_S4096x10_1_0_0_1_n_n.rhsIdx_val_of_single rfl i q
theorem rhsA_1 (i : S4096x10.Idx) (q : dot_S4096x10_S10x10_S4096x10_1_0_0_1_n_n.contr.Idx) :
    (dot_S4096x10_S10x10_S4096x10_1_0_0_1_n_n.rhsIdx i q 1).val = (i 1).val := by
  unfold DotDims.rhsIdx
  rw [dif_neg (show ¬(1 : Fin S10x10.rank) ∈ dot_S4096x10_S10x10_S4096x10_1_0_0_1_n_n.rhsBatch by decide), dif_pos (show (1 : Fin S10x10.rank) ∈ dot_S4096x10_S10x10_S4096x10_1_0_0_1_n_n.rhsNonContracting by decide)]
  rfl

/-- A table block times a leaf matrix at (p, a): ∑ₖ X (p, k) · A (k, a). -/
theorem mm_leaf (x : FVec Ideal S4096x10 .f32) (w : FVec Ideal S10x10 .f32) (p : Fin 4096) (a : Fin 10) :
    matmul dot_S4096x10_S10x10_S4096x10_1_0_0_1_n_n (some .fp32) x w (constant S4096x10 .f32 0x00000000#32) (ix2 p a)
      = ∑ k : Fin 10, x (ix2 p k) * w (ix2 k a) :=
  Cert.Lib.matmul_plain_apply dot_S4096x10_S10x10_S4096x10_1_0_0_1_n_n rfl rfl lhsA_0 lhsA_1 rhsA_0 rhsA_1 _ x w p a

theorem lhsB_0 (i : S4096x100.Idx) (q : dot_S4096x10_S10x100_S4096x100_1_0_0_1_n_n.contr.Idx) :
    (dot_S4096x10_S10x100_S4096x100_1_0_0_1_n_n.lhsIdx i q 0).val = (i 0).val := by
  unfold DotDims.lhsIdx
  rw [dif_neg (show ¬(0 : Fin S4096x10.rank) ∈ dot_S4096x10_S10x100_S4096x100_1_0_0_1_n_n.lhsBatch by decide), dif_pos (show (0 : Fin S4096x10.rank) ∈ dot_S4096x10_S10x100_S4096x100_1_0_0_1_n_n.lhsNonContracting by decide)]
  rfl
theorem lhsB_1 (i : S4096x100.Idx) (q : dot_S4096x10_S10x100_S4096x100_1_0_0_1_n_n.contr.Idx) :
    (dot_S4096x10_S10x100_S4096x100_1_0_0_1_n_n.lhsIdx i q 1).val = (q ⟨0, by decide⟩).val :=
  dot_S4096x10_S10x100_S4096x100_1_0_0_1_n_n.lhsIdx_val_of_single rfl i q
theorem rhsB_0 (i : S4096x100.Idx) (q : dot_S4096x10_S10x100_S4096x100_1_0_0_1_n_n.contr.Idx) :
    (dot_S4096x10_S10x100_S4096x100_1_0_0_1_n_n.rhsIdx i q 0).val = (q ⟨0, by decide⟩).val :=
  dot_S4096x10_S10x100_S4096x100_1_0_0_1_n_n.rhsIdx_val_of_single rfl i q
theorem rhsB_1 (i : S4096x100.Idx) (q : dot_S4096x10_S10x100_S4096x100_1_0_0_1_n_n.contr.Idx) :
    (dot_S4096x10_S10x100_S4096x100_1_0_0_1_n_n.rhsIdx i q 1).val = (i 1).val := by
  unfold DotDims.rhsIdx
  rw [dif_neg (show ¬(1 : Fin S10x100.rank) ∈ dot_S4096x10_S10x100_S4096x100_1_0_0_1_n_n.rhsBatch by decide), dif_pos (show (1 : Fin S10x100.rank) ∈ dot_S4096x10_S10x100_S4096x100_1_0_0_1_n_n.rhsNonContracting by decide)]
  rfl

/-- A leaf block times a selector matrix at (p, c): ∑ₐ L (p, a) · E (a, c). -/
theorem mm_sel (l : FVec Ideal S4096x10 .f32) (e : FVec Ideal S10x100 .f32) (p : Fin 4096) (c : Fin 100) :
    matmul dot_S4096x10_S10x100_S4096x100_1_0_0_1_n_n (some .fp32) l e (constant S4096x100 .f32 0x00000000#32) (ix2 p c)
      = ∑ a : Fin 10, l (ix2 p a) * e (ix2 a c) :=
  Cert.Lib.matmul_plain_apply dot_S4096x10_S10x100_S4096x100_1_0_0_1_n_n rfl rfl lhsB_0 lhsB_1 rhsB_0 rhsB_1 _ l e p c

theorem lhsC_0 (i : S4096x19.Idx) (q : dot_S4096x100_S100x19_S4096x19_1_0_0_1_n_n.contr.Idx) :
    (dot_S4096x100_S100x19_S4096x19_1_0_0_1_n_n.lhsIdx i q 0).val = (i 0).val := by
  unfold DotDims.lhsIdx
  rw [dif_neg (show ¬(0 : Fin S4096x100.rank) ∈ dot_S4096x100_S100x19_S4096x19_1_0_0_1_n_n.lhsBatch by decide), dif_pos (show (0 : Fin S4096x100.rank) ∈ dot_S4096x100_S100x19_S4096x19_1_0_0_1_n_n.lhsNonContracting by decide)]
  rfl
theorem lhsC_1 (i : S4096x19.Idx) (q : dot_S4096x100_S100x19_S4096x19_1_0_0_1_n_n.contr.Idx) :
    (dot_S4096x100_S100x19_S4096x19_1_0_0_1_n_n.lhsIdx i q 1).val = (q ⟨0, by decide⟩).val :=
  dot_S4096x100_S100x19_S4096x19_1_0_0_1_n_n.lhsIdx_val_of_single rfl i q
theorem rhsC_0 (i : S4096x19.Idx) (q : dot_S4096x100_S100x19_S4096x19_1_0_0_1_n_n.contr.Idx) :
    (dot_S4096x100_S100x19_S4096x19_1_0_0_1_n_n.rhsIdx i q 0).val = (q ⟨0, by decide⟩).val :=
  dot_S4096x100_S100x19_S4096x19_1_0_0_1_n_n.rhsIdx_val_of_single rfl i q
theorem rhsC_1 (i : S4096x19.Idx) (q : dot_S4096x100_S100x19_S4096x19_1_0_0_1_n_n.contr.Idx) :
    (dot_S4096x100_S100x19_S4096x19_1_0_0_1_n_n.rhsIdx i q 1).val = (i 1).val := by
  unfold DotDims.rhsIdx
  rw [dif_neg (show ¬(1 : Fin S100x19.rank) ∈ dot_S4096x100_S100x19_S4096x19_1_0_0_1_n_n.rhsBatch by decide), dif_pos (show (1 : Fin S100x19.rank) ∈ dot_S4096x100_S100x19_S4096x19_1_0_0_1_n_n.rhsNonContracting by decide)]
  rfl

/-- A block of cells times the digit-sum matrix at (p, q): ∑_c C (p, c) · M (c, q). -/
theorem mm_sum (g : FVec Ideal S4096x100 .f32) (mm : FVec Ideal S100x19 .f32) (p : Fin 4096) (q : Fin 19) :
    matmul dot_S4096x100_S100x19_S4096x19_1_0_0_1_n_n (some .fp32) g mm (constant S4096x19 .f32 0x00000000#32) (ix2 p q)
      = ∑ c : Fin 100, g (ix2 p c) * mm (ix2 c q) :=
  Cert.Lib.matmul_plain_apply dot_S4096x100_S100x19_S4096x19_1_0_0_1_n_n rfl rfl lhsC_0 lhsC_1 rhsC_0 rhsC_1 _ g mm p q

/-! ## The body's stages -/

/-- R = (X · A) · E, the leaf rows expanded over the hundred digit pairs. -/
def rep (x : FVec Ideal S4096x10 .f32) (w : FVec Ideal S10x10 .f32) (e : FVec Ideal S10x100 .f32) : FVec Ideal S4096x100 .f32 :=
  matmul dot_S4096x10_S10x100_S4096x100_1_0_0_1_n_n (some .fp32)
    (matmul dot_S4096x10_S10x10_S4096x10_1_0_0_1_n_n (some .fp32) x (shapeCast S10x10 w shapeCasts_S10x10_S10x10) (constant S4096x10 .f32 0x00000000#32))
    e (constant S4096x100 .f32 0x00000000#32)

/-- C = log (1 − min hi (max lo (min R₁ R₂)) + ε₁₂). -/
def cells (r₁ r₂ : FVec Ideal S4096x100 .f32) : FVec Ideal S4096x100 .f32 :=
  log (addf (subf (broadcast S4096x100 (Scalar.ofBits .f32 0x3F800000#32))
      (minimumf (broadcast S4096x100 (Scalar.ofBits .f32 0x3F7FFFEF#32))
        (maximumf (broadcast S4096x100 (Scalar.ofBits .f32 0x358637BD#32)) (minimumf r₁ r₂))))
    (broadcast S4096x100 (Scalar.ofBits .f32 0x2B8CBCCC#32)))

/-- Y = 1 − exp (C · M). -/
def ors (g : FVec Ideal S4096x100 .f32) (mm : FVec Ideal S100x19 .f32) : FVec Ideal S4096x19 .f32 :=
  subf (broadcast S4096x19 (Scalar.ofBits .f32 0x3F800000#32))
    (exp (matmul dot_S4096x100_S100x19_S4096x19_1_0_0_1_n_n (some .fp32) g mm (constant S4096x19 .f32 0x00000000#32)))

/-- Y / (rowsum Y + ε₉). -/
def norm (y : FVec Ideal S4096x19 .f32) : FVec Ideal S4096x19 .f32 :=
  divf y (broadcastTo S4096x19
    (addf (shapeCast S4096x1 (multiReduction .add [1] S4096 y 0x00000000#32 reduces_S4096x19_S4096 (.inl rfl) rfl) shapeCasts_S4096_S4096x1)
      (broadcast S4096x1 (Scalar.ofBits .f32 0x3089705F#32)))
    broadcasts_S4096x1_S4096x19)

/-- The body's payload is these stages composed. -/
theorem pay_eq (x0 x1 : FVec Ideal S4096x10 .f32) (w1 w2 : FVec Ideal S10x10 .f32) (e1 e2 : FVec Ideal S10x100 .f32)
    (mm : FVec Ideal S100x19 .f32) :
    k0_pay1 (F := Ideal) x0 x1 w1 w2 e1 e2 mm = norm (ors (cells (rep x0 w1 e1) (rep x1 w2 e2)) mm) := rfl

/-! ## Each stage at an entry -/

/-- With the leading-digit selector, R (p, c) is the leaf row's entry at c / 10. -/
theorem rep_hi (x : FVec Ideal S4096x10 .f32) (w : FVec Ideal S10x10 .f32) (e : FVec Ideal S10x100 .f32)
    (he : ∀ (a : Fin 10) (c : Fin 100), e (ix2 a c) = if a.val = c.val / 10 then (1 : EReal) else 0) (p : Fin 4096) (c : Fin 100) :
    rep x w e (ix2 p c) = Row.leaf (fun k => x (ix2 p k)) (fun k a => w (ix2 k a)) (Row.hiD c) := by
  unfold rep
  rw [mm_sel, shapeCast_self]
  rw [Finset.sum_congr rfl fun a _ => by rw [he a c, mm_leaf]]
  exact Row.sum_sel_hi (fun a => ∑ k : Fin 10, x (ix2 p k) * w (ix2 k a)) c

/-- With the trailing-digit selector, R (p, c) is the leaf row's entry at c % 10. -/
theorem rep_lo (x : FVec Ideal S4096x10 .f32) (w : FVec Ideal S10x10 .f32) (e : FVec Ideal S10x100 .f32)
    (he : ∀ (a : Fin 10) (c : Fin 100), e (ix2 a c) = if a.val = c.val % 10 then (1 : EReal) else 0) (p : Fin 4096) (c : Fin 100) :
    rep x w e (ix2 p c) = Row.leaf (fun k => x (ix2 p k)) (fun k a => w (ix2 k a)) (Row.loD c) := by
  unfold rep
  rw [mm_sel, shapeCast_self]
  rw [Finset.sum_congr rfl fun a _ => by rw [he a c, mm_leaf]]
  exact Row.sum_sel_lo (fun a => ∑ k : Fin 10, x (ix2 p k) * w (ix2 k a)) c

/-- The cells are pointwise. -/
theorem cells_apply (r₁ r₂ : FVec Ideal S4096x100 .f32) (i : S4096x100.Idx) : cells r₁ r₂ i = Row.cell (r₁ i) (r₂ i) := rfl

/-- Y (p, q) = 1 − exp (∑_c C (p, c) · M (c, q)). -/
theorem ors_apply (g : FVec Ideal S4096x100 .f32) (mm : FVec Ideal S100x19 .f32) (p : Fin 4096) (q : Fin 19) :
    ors g mm (ix2 p q) = Ideal.ofBits .f32 0x3F800000#32 - Ideal.exp (∑ c : Fin 100, g (ix2 p c) * mm (ix2 c q)) := by
  rw [← mm_sum]; rfl

/-- The row sum: the lane reduction at p is ∑_q Y (p, q). -/
theorem rowsum_apply (y : FVec Ideal S4096x19 .f32) (p : Fin 4096) :
    multiReduction .add [1] S4096 y 0x00000000#32 reduces_S4096x19_S4096 (.inl rfl) rfl (ix1 p) = ∑ q : Fin 19, y (ix2 p q) := by
  refine (Ideal.multiReduction_add_single y 0x00000000#32 reduces_S4096x19_S4096 (.inl rfl) rfl (ix1 p)).trans ?_
  refine Finset.sum_congr rfl fun q _ => congrArg y (funext fun a => Fin.ext ?_)
  match a with
  | ⟨0, _⟩ => rfl
  | ⟨1, _⟩ => rfl

/-- The normalised row at (p, q). -/
theorem norm_apply (y : FVec Ideal S4096x19 .f32) (p : Fin 4096) (q : Fin 19) :
    norm y (ix2 p q) = Ideal.div (y (ix2 p q)) (∑ q' : Fin 19, y (ix2 p q') + Ideal.ofBits .f32 0x3089705F#32) := by
  unfold norm
  rw [divf_apply, Cert.Lib.broadcastTo_a1_ab_apply, addf_apply, Cert.Lib.shapeCast_a_a1_apply, rowsum_apply]
  rfl

/-! ## The payload at an entry -/

/-- The body's result at (p, q), when the three constant matrices are the digit selectors and the digit-sum
    indicator: `Row.out` of the two leaf rows of p. -/
theorem pay_apply (x0 x1 : FVec Ideal S4096x10 .f32) (w1 w2 : FVec Ideal S10x10 .f32) (e1 e2 : FVec Ideal S10x100 .f32)
    (mm : FVec Ideal S100x19 .f32)
    (he1 : ∀ (a : Fin 10) (c : Fin 100), e1 (ix2 a c) = if a.val = c.val / 10 then (1 : EReal) else 0)
    (he2 : ∀ (a : Fin 10) (c : Fin 100), e2 (ix2 a c) = if a.val = c.val % 10 then (1 : EReal) else 0)
    (hm : ∀ (c : Fin 100) (q : Fin 19), mm (ix2 c q) = Row.ind c q) (p : Fin 4096) (q : Fin 19) :
    k0_pay1 (F := Ideal) x0 x1 w1 w2 e1 e2 mm (ix2 p q)
      = Row.out (Row.leaf (fun k => x0 (ix2 p k)) (fun k a => w1 (ix2 k a)))
          (Row.leaf (fun k => x1 (ix2 p k)) (fun k a => w2 (ix2 k a))) q := by
  have hy : ∀ q' : Fin 19, ors (cells (rep x0 w1 e1) (rep x1 w2 e2)) mm (ix2 p q')
      = Row.smoothOr (Row.leaf (fun k => x0 (ix2 p k)) (fun k a => w1 (ix2 k a)))
          (Row.leaf (fun k => x1 (ix2 p k)) (fun k a => w2 (ix2 k a))) q' := fun q' => by
    rw [ors_apply]
    unfold Row.smoothOr
    refine congrArg (fun s => Ideal.ofBits .f32 0x3F800000#32 - Ideal.exp s) (Finset.sum_congr rfl fun c _ => ?_)
    rw [cells_apply, rep_hi x0 w1 e1 he1, rep_lo x1 w2 e2 he2, hm]
  rw [pay_eq, norm_apply, hy q, Finset.sum_congr rfl fun q' _ => hy q']
  rfl

end Cert.KernelIdeal.Pay

end
-- ==== Proof.Tables.lean ====
/-
  The three constant matrices the kernel passes to its body, decoded.

  They are printed as tables of f32 words, row-major. Entry by entry (decided over all 1000, 1000 and 1900 entries):
    E₁ (a, c) is the word of 1 when a = c / 10 and the zero word otherwise            (10 × 100),
    E₂ (a, c) is the word of 1 when a = c % 10 and the zero word otherwise            (10 × 100),
    M  (c, q) is the word of 1 when c / 10 + c % 10 = q and the zero word otherwise   (100 × 19).
  Read as extended reals the two words are 1 and 0.
-/
import proofs.«180273_j52192442581023_1_alg».proof.KernelIdeal
import proofs.«180273_j52192442581023_1_alg».proof.Proof.RowSpec
import Idealize.ShloMosaic.Lib.ValueIdx
import Idealize.ShloMosaic.Lib.IdealHost

noncomputable section

namespace Cert.KernelIdeal.Tables

open Cert.KernelIdeal Idealize.ShloMosaic Idealize.ShloMosaic.ValueIdx

/-- The words of the leading-digit selector. -/
theorem sel_hi_words : ∀ (a : Fin 10) (c : Fin 100),
    lit0t (a.val * 100 + c.val) = if a.val = c.val / 10 then 0x3F800000#32 else 0x00000000#32 := by decide +kernel

/-- The words of the trailing-digit selector. -/
theorem sel_lo_words : ∀ (a : Fin 10) (c : Fin 100),
    lit1t (a.val * 100 + c.val) = if a.val = c.val % 10 then 0x3F800000#32 else 0x00000000#32 := by decide +kernel

/-- The words of the digit-sum indicator. -/
theorem digit_sum_words : ∀ (c : Fin 100) (q : Fin 19),
    lit2t (c.val * 19 + q.val) = if c.val / 10 + c.val % 10 = q.val then 0x3F800000#32 else 0x00000000#32 := by decide +kernel

/-- A 0/1 word read as an extended real. -/
theorem ofBits_ite (P : Prop) [Decidable P] :
    Ideal.ofBits .f32 (if P then 0x3F800000#32 else 0x00000000#32) = if P then (1 : EReal) else 0 := by
  split
  · exact Ideal.ofBits_one_f32
  · exact Ideal.ofBits_zero_f32

/-- E₁ (a, c) = [a = c / 10]. -/
theorem sel_hi_apply (a : Fin 10) (c : Fin 100) :
    (FloatOps.ofBits (F := Ideal) .f32 (lit0 (S10x100.rowMajor (ix2 a c))) : EReal) = if a.val = c.val / 10 then (1 : EReal) else 0 := by
  have h : lit0 (S10x100.rowMajor (ix2 a c)) = lit0t (a.val * 100 + c.val) := congrArg lit0t (Shape.rowMajor_val_two (ix2 a c))
  rw [h, sel_hi_words]
  exact ofBits_ite _

/-- E₂ (a, c) = [a = c % 10]. -/
theorem sel_lo_apply (a : Fin 10) (c : Fin 100) :
    (FloatOps.ofBits (F := Ideal) .f32 (lit1 (S10x100.rowMajor (ix2 a c))) : EReal) = if a.val = c.val % 10 then (1 : EReal) else 0 := by
  have h : lit1 (S10x100.rowMajor (ix2 a c)) = lit1t (a.val * 100 + c.val) := congrArg lit1t (Shape.rowMajor_val_two (ix2 a c))
  rw [h, sel_lo_words]
  exact ofBits_ite _

/-- M (c, q) = [c / 10 + c % 10 = q]. -/
theorem digit_sum_apply (c : Fin 100) (q : Fin 19) :
    (FloatOps.ofBits (F := Ideal) .f32 (lit2 (S100x19.rowMajor (ix2 c q))) : EReal) = Row.ind c q := by
  have h : lit2 (S100x19.rowMajor (ix2 c q)) = lit2t (c.val * 19 + q.val) := congrArg lit2t (Shape.rowMajor_val_two (ix2 c q))
  rw [h, digit_sum_words]
  exact ofBits_ite _

end Cert.KernelIdeal.Tables

end
-- ==== Proof.Whole.lean ====
/-
  The whole 262144 × 19 result as one function of the two probability tables and the two leaf matrices:
  entry (r, q) is `Row.out` of the leaf rows of r (row r of each table through its leaf matrix) at q.
-/
import proofs.«180273_j52192442581023_1_alg».proof.Proof.RowSpec
import Idealize.ShloMosaic.Lib.ValueIdx

noncomputable section

namespace Cert.Whole

open Idealize.ShloMosaic Idealize.ShloMosaic.ValueIdx

/-- Entry (r, q) of the result. -/
def outAt (x0 x1 : FVec Ideal ⟨2, ![262144, 10]⟩ .f32) (w1 w2 : FVec Ideal ⟨2, ![10, 10]⟩ .f32) (r : Fin 262144) (q : Fin 19) : EReal :=
  Row.out (Row.leaf (fun k => x0 (ix2 r k)) (fun k a => w1 (ix2 k a)))
    (Row.leaf (fun k => x1 (ix2 r k)) (fun k a => w2 (ix2 k a))) q

/-- The result array. -/
def G (x0 x1 : FVec Ideal ⟨2, ![262144, 10]⟩ .f32) (w1 w2 : FVec Ideal ⟨2, ![10, 10]⟩ .f32) : FVec Ideal ⟨2, ![262144, 19]⟩ .f32 :=
  fun i => outAt x0 x1 w1 w2 ⟨(i 0).val, idx2_lt0 i⟩ ⟨(i 1).val, idx2_lt1 i⟩

theorem G_ix2 (x0 x1 : FVec Ideal ⟨2, ![262144, 10]⟩ .f32) (w1 w2 : FVec Ideal ⟨2, ![10, 10]⟩ .f32) (r : Fin 262144) (q : Fin 19) :
    G x0 x1 w1 w2 (ix2 r q) = outAt x0 x1 w1 w2 r q := rfl

end Cert.Whole

end
-- ==== Proof.KValue.lean ====
/-
  From the kernel's blocks to its whole result array.

  The grid has 64 points; point t stages rows 4096 t … 4096 t + 4095 of each probability table and of the result, and
  the whole of each small matrix (both leaf matrices, the two digit selectors, the digit-sum indicator). What point t
  writes back is therefore, entry by entry, `Row.out` of the leaf rows of array row 4096 t + p — block t of the
  whole-array function `Whole.G` —, the 64 blocks cover the array, and the array after the run is `Whole.G`.
-/
import proofs.«180273_j52192442581023_1_alg».proof.Proof.Gen.KernelIdeal.Value
import proofs.«180273_j52192442581023_1_alg».proof.Proof.KPay
import proofs.«180273_j52192442581023_1_alg».proof.Proof.Tables
import proofs.«180273_j52192442581023_1_alg».proof.Proof.Whole
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every point: the tables and the result move with the point along the rows,
    the small matrices stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The blocks, by their literal types -/

abbrev blk0 (c : Dev nD) (t : Fin cfg0.N) : FVec Ideal S4096x10 .f32 := iblk m c 0 t
abbrev blk1 (c : Dev nD) (t : Fin cfg0.N) : FVec Ideal S4096x10 .f32 := iblk m c 1 t
abbrev blk2 (c : Dev nD) (t : Fin cfg0.N) : FVec Ideal S10x10 .f32 := iblk m c 2 t
abbrev blk3 (c : Dev nD) (t : Fin cfg0.N) : FVec Ideal S10x10 .f32 := iblk m c 3 t
abbrev blk4 (c : Dev nD) (t : Fin cfg0.N) : FVec Ideal S10x100 .f32 := iblk m c 4 t
abbrev blk5 (c : Dev nD) (t : Fin cfg0.N) : FVec Ideal S10x100 .f32 := iblk m c 5 t
abbrev blk6 (c : Dev nD) (t : Fin cfg0.N) : FVec Ideal S100x19 .f32 := iblk m c 6 t

/-- Array row of block row p at point t. -/
abbrev rowAt (t : Fin cfg0.N) (p : Fin 4096) : Fin 262144 :=
  ⟨t.val * 4096 + p.val, by have hN : cfg0.N = 64 := N_0; have := t.isLt; have := p.isLt; omega⟩

theorem blk0_apply (c : Dev nD) (t : Fin cfg0.N) (p : Fin 4096) (k : Fin 10) :
    blk0 m c t (ix2 p k) = V m c main_arg0 (ix2 (rowAt t p) k) := by
  show V m c main_arg0 (((cfg0.win 0).blk t).view.emb (ix2 p k)) = _
  refine congrArg (V m c main_arg0) (funext fun a => Fin.ext ?_)
  obtain ⟨e00, e01, -⟩ := idx_facts t
  match a with
  | ⟨0, _⟩ => show win0_0.index t (0 : Fin 2) * 4096 + 1 * p.val = t.val * 4096 + p.val; omega
  | ⟨1, _⟩ => show win0_0.index t (1 : Fin 2) * 10 + 1 * k.val = k.val; omega

theorem blk1_apply (c : Dev nD) (t : Fin cfg0.N) (p : Fin 4096) (k : Fin 10) :
    blk1 m c t (ix2 p k) = V m c main_arg1 (ix2 (rowAt t p) k) := by
  show V m c main_arg1 (((cfg0.win 1).blk t).view.emb (ix2 p k)) = _
  refine congrArg (V m c main_arg1) (funext fun a => Fin.ext ?_)
  obtain ⟨-, -, e10, e11, -⟩ := idx_facts t
  match a with
  | ⟨0, _⟩ => show win0_1.index t (0 : Fin 2) * 4096 + 1 * p.val = t.val * 4096 + p.val; omega
  | ⟨1, _⟩ => show win0_1.index t (1 : Fin 2) * 10 + 1 * k.val = k.val; omega

theorem blk2_apply (c : Dev nD) (t : Fin cfg0.N) (k a : Fin 10) : blk2 m c t (ix2 k a) = V m c main_v17 (ix2 k a) := by
  show V m c main_v17 (((cfg0.win 2).blk t).view.emb (ix2 k a)) = _
  refine congrArg (V m c main_v17) (funext fun d => Fin.ext ?_)
  obtain ⟨-, -, -, -, e20, e21, -⟩ := idx_facts t
  match d with
  | ⟨0, _⟩ => show win0_2.index t (0 : Fin 2) * 10 + 1 * k.val = k.val; omega
  | ⟨1, _⟩ => show win0_2.index t (1 : Fin 2) * 10 + 1 * a.val = a.val; omega

theorem blk3_apply (c : Dev nD) (t : Fin cfg0.N) (k a : Fin 10) : blk3 m c t (ix2 k a) = V m c main_v35 (ix2 k a) := by
  show V m c main_v35 (((cfg0.win 3).blk t).view.emb (ix2 k a)) = _
  refine congrArg (V m c main_v35) (funext fun d => Fin.ext ?_)
  obtain ⟨-, -, -, -, -, -, e30, e31, -⟩ := idx_facts t
  match d with
  | ⟨0, _⟩ => show win0_3.index t (0 : Fin 2) * 10 + 1 * k.val = k.val; omega
  | ⟨1, _⟩ => show win0_3.index t (1 : Fin 2) * 10 + 1 * a.val = a.val; omega

/-! ## The three constant matrices as the region finds them -/

theorem selHi_eq (c : Dev nD) :
    (V m c main_cst : S10x100.Idx → EReal) = fun i => FloatOps.ofBits (F := Ideal) .f32 (lit0 (S10x100.rowMajor i)) := by
  dsimp only [Gen.V, Gen.hostOps0]; after_results; rfl

theorem selLo_eq (c : Dev nD) :
    (V m c main_cst_0 : S10x100.Idx → EReal) = fun i => FloatOps.ofBits (F := Ideal) .f32 (lit1 (S10x100.rowMajor i)) := by
  dsimp only [Gen.V, Gen.hostOps0]; after_results; rfl

theorem dsum_eq (c : Dev nD) :
    (V m c main_cst_1 : S100x19.Idx → EReal) = fun i => FloatOps.ofBits (F := Ideal) .f32 (lit2 (S100x19.rowMajor i)) := by
  dsimp only [Gen.V, Gen.hostOps0]; after_results; rfl

theorem blk4_apply (c : Dev nD) (t : Fin cfg0.N) (a : Fin 10) (j : Fin 100) :
    blk4 m c t (ix2 a j) = if a.val = j.val / 10 then (1 : EReal) else 0 := by
  have e : ((cfg0.win 4).blk t).view.emb (ix2 a j) = ix2 a j := funext fun d => Fin.ext (by
    obtain ⟨-, -, -, -, -, -, -, -, e40, e41, -⟩ := idx_facts t
    match d with
    | ⟨0, _⟩ => show win0_4.index t (0 : Fin 2) * 10 + 1 * a.val = a.val; omega
    | ⟨1, _⟩ => show win0_4.index t (1 : Fin 2) * 100 + 1 * j.val = j.val; omega)
  show V m c main_cst (((cfg0.win 4).blk t).view.emb (ix2 a j)) = _
  rw [e, selHi_eq]
  exact Tables.sel_hi_apply a j

theorem blk5_apply (c : Dev nD) (t : Fin cfg0.N) (a : Fin 10) (j : Fin 100) :
    blk5 m c t (ix2 a j) = if a.val = j.val % 10 then (1 : EReal) else 0 := by
  have e : ((cfg0.win 5).blk t).view.emb (ix2 a j) = ix2 a j := funext fun d => Fin.ext (by
    obtain ⟨-, -, -, -, -, -, -, -, -, -, e50, e51, -⟩ := idx_facts t
    match d with
    | ⟨0, _⟩ => show win0_5.index t (0 : Fin 2) * 10 + 1 * a.val = a.val; omega
    | ⟨1, _⟩ => show win0_5.index t (1 : Fin 2) * 100 + 1 * j.val = j.val; omega)
  show V m c main_cst_0 (((cfg0.win 5).blk t).view.emb (ix2 a j)) = _
  rw [e, selLo_eq]
  exact Tables.sel_lo_apply a j

theorem blk6_apply (c : Dev nD) (t : Fin cfg0.N) (j : Fin 100) (q : Fin 19) : blk6 m c t (ix2 j q) = Row.ind j q := by
  have e : ((cfg0.win 6).blk t).view.emb (ix2 j q) = ix2 j q := funext fun d => Fin.ext (by
    obtain ⟨-, -, -, -, -, -, -, -, -, -, -, -, e60, e61, -⟩ := idx_facts t
    match d with
    | ⟨0, _⟩ => show win0_6.index t (0 : Fin 2) * 100 + 1 * j.val = j.val; omega
    | ⟨1, _⟩ => show win0_6.index t (1 : Fin 2) * 19 + 1 * q.val = q.val; omega)
  show V m c main_cst_1 (((cfg0.win 6).blk t).view.emb (ix2 j q)) = _
  rw [e, dsum_eq]
  exact Tables.digit_sum_apply j q

/-! ## What a point writes back, the cover, and the array after the run -/

/-- The result array, of the arrays as the region finds them. -/
abbrev Gv (c : Dev nD) : FVec Ideal S262144x19 .f32 :=
  Whole.G (V m c main_arg0) (V m c main_arg1) (V m c main_v17) (V m c main_v35)

/-- Point t writes back block t of the result array. -/
theorem flushed_eq (c : Dev nD) (t : Fin cfg0.N) :
    (dats m 0 c).flushed 7 t = ((cfg0.win 7).blk t).view.read (Elt Ideal) (Gv m c) := by
  rw [Value.flushed7]
  unfold out0_7
  rw [View.canon_unit_zero hz]
  simp only [View.ld_unit_zero (S := S4096x10) hz, View.ld_unit_zero (S := S10x10) hz, View.ld_unit_zero (S := S10x100) hz,
    View.ld_unit_zero (S := S100x19) hz]
  funext j
  obtain ⟨p, q, rfl⟩ : ∃ (p : Fin 4096) (q : Fin 19), j = ix2 p q := ⟨j 0, j 1, eq_ix2 j⟩
  have e7 : ((cfg0.win 7).blk t).view.emb (ix2 p q) = ix2 (rowAt t p) q := funext fun d => Fin.ext (by
    obtain ⟨-, -, -, -, -, -, -, -, -, -, -, -, -, -, e70, e71⟩ := idx_facts t
    match d with
    | ⟨0, _⟩ => show win0_7.index t (0 : Fin 2) * 4096 + 1 * p.val = t.val * 4096 + p.val; omega
    | ⟨1, _⟩ => show win0_7.index t (1 : Fin 2) * 19 + 1 * q.val = q.val; omega)
  show k0_pay1 (F := Ideal) (blk0 m c t) (blk1 m c t) (blk2 m c t) (blk3 m c t) (blk4 m c t) (blk5 m c t) (blk6 m c t) (ix2 p q)
    = Gv m c (((cfg0.win 7).blk t).view.emb (ix2 p q))
  refine (Pay.pay_apply (blk0 m c t) (blk1 m c t) (blk2 m c t) (blk3 m c t) (blk4 m c t) (blk5 m c t) (blk6 m c t)
    (blk4_apply m c t) (blk5_apply m c t) (blk6_apply m c t) p q).trans ?_
  refine Eq.trans ?_ (congrArg (Gv m c) e7).symm
  have h0 : (fun k : Fin 10 => blk0 m c t (ix2 p k)) = fun k => V m c main_arg0 (ix2 (rowAt t p) k) := funext fun k => blk0_apply m c t p k
  have h1 : (fun k : Fin 10 => blk1 m c t (ix2 p k)) = fun k => V m c main_arg1 (ix2 (rowAt t p) k) := funext fun k => blk1_apply m c t p k
  have h2 : (fun k a : Fin 10 => blk2 m c t (ix2 k a)) = fun k a => V m c main_v17 (ix2 k a) := funext fun k => funext fun a => blk2_apply m c t k a
  have h3 : (fun k a : Fin 10 => blk3 m c t (ix2 k a)) = fun k a => V m c main_v35 (ix2 k a) := funext fun k => funext fun a => blk3_apply m c t k a
  rw [h0, h1, h2, h3]
  rfl

/-- An index of the array is in point t's block iff each coordinate is in the block's range. -/
theorem mem_blk (t : Fin cfg0.N) (i : S262144x19.Idx) :
    i ∈ ((cfg0.win 7).blk t).view.set ↔ ∀ a : Fin 2, win0_7.index t a * S4096x19.size a ≤ (i a).val ∧ (i a).val < win0_7.index t a * S4096x19.size a + S4096x19.size a := by
  show i ∈ ((View.whole main_v36).slice (win0_7.rect t)).set ↔ _
  rw [View.set_slice_whole, Rect.mem_set_unit]
  exact Iff.rfl

/-- Row r of the array is in the block of point r / 4096. -/
theorem cover (i : S262144x19.Idx) : ∃ t : Fin cfg0.N, (cfg0.win 7).flush t = true ∧ i ∈ ((cfg0.win 7).blk t).view.set := by
  have hi0 : (i 0).val < 262144 := (i 0).isLt
  have hi1 : (i 1).val < 19 := (i 1).isLt
  have hN : cfg0.N = 64 := N_0
  have ht : (i 0).val / 4096 < cfg0.N := by omega
  refine ⟨⟨(i 0).val / 4096, ht⟩, flush0_7 _, ?_⟩
  rw [mem_blk]
  obtain ⟨-, -, -, -, -, -, -, -, -, -, -, -, -, -, e70, e71⟩ := idx_facts ⟨(i 0).val / 4096, ht⟩
  intro a
  match a with
  | ⟨0, _⟩ =>
    show win0_7.index ⟨(i 0).val / 4096, ht⟩ (0 : Fin 2) * 4096 ≤ (i 0).val ∧ (i 0).val < win0_7.index ⟨(i 0).val / 4096, ht⟩ (0 : Fin 2) * 4096 + 4096
    rw [e70]; show (i 0).val / 4096 * 4096 ≤ (i 0).val ∧ (i 0).val < (i 0).val / 4096 * 4096 + 4096; omega
  | ⟨1, _⟩ =>
    show win0_7.index ⟨(i 0).val / 4096, ht⟩ (1 : Fin 2) * 19 ≤ (i 1).val ∧ (i 1).val < win0_7.index ⟨(i 0).val / 4096, ht⟩ (1 : Fin 2) * 19 + 19
    rw [e71]; omega

/-- The result array after the run. -/
theorem final (c : Dev nD) : (dats m 0 c).arrAt 7 cfg0.N = Gv m c :=
  (dats m 0 c).arrAt_eq_of_cover 7 (Gv m c) (fun t _ => flushed_eq m c t) cover

/-- The kernel's run: the result array is `Whole.G` of the two tables as launched and of the two leaf matrices the
    host operations before the call computed; the arguments are unchanged. -/
theorem run : θ_run defs (onTc (τ := τ) (main (F := Ideal))) ⟨m, fun _ => 0, ρ⟩ fun r => ∀ c : Dev nD,
      r.2.mem ((c : Thread nD τ).loc main_v36)
        = Whole.G (m ((c : Thread nD τ).loc main_arg0)) (m ((c : Thread nD τ).loc main_arg1)) (V m c main_v17) (V m c main_v35)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show Whole.G (V m c main_arg0) (V m c main_arg1) _ _ = _
      rw [V_main_arg0, V_main_arg1])), (h c).2⟩)
    (Value.run_blocks m ρ)

end Cert.KernelIdeal.Blocks

end
-- ==== Proof.RefRow.lean ====
/-
  The reference's result at one entry (r, q), at the ideal values.

  The reference forms l₁ = p₁ · A₁ and l₂ = p₂ · A₂ (262144 × 10), spreads them to all digit pairs as
  min (l₁ (r, i)) (l₂ (r, j)) (262144 × 10 × 10), takes log (1 − clamp + ε₁₂), flattens the pair (i, j) to c = 10 i + j,
  multiplies by the one-hot matrix of the digit sums i + j (computed from two iotas, an integer sum and a comparison
  with a third iota), and normalises 1 − exp of that row-wise. Entry (r, q) is `Row.out` of the two leaf rows of r.
  The leaf matrices A₁, A₂ stay as the reference computes them from its last two arguments.
-/
import proofs.«180273_j52192442581023_1_alg».proof.Proof.Gen.ReferenceIdeal.Read
import proofs.«180273_j52192442581023_1_alg».proof.Proof.RowSpec
import Idealize.ShloMosaic.Lib.ValueIdx

noncomputable section

namespace Cert.ReferenceIdeal.RefRow

open Cert.ReferenceIdeal Cert.ReferenceIdeal.Read Idealize.ShloMosaic Idealize.ShloMosaic.ValueIdx

/-- The first leaf block at (r, a): the leaf row of r through A₁. -/
theorem leaf1_apply (x0 : FVec Ideal S262144x10 .f32) (x2 : FVec Ideal S10x10 .f32) (r : Fin 262144) (a : Fin 10) :
    val_main_v18 (F := Ideal) x0 x2 (ix2 r a)
      = Row.leaf (fun k => x0 (ix2 r k)) (fun k a => val_main_v17 (F := Ideal) x2 (ix2 k a)) a := by
  rw [val_main_v18_apply]
  refine Finset.sum_congr rfl fun k _ => ?_
  have el : lidx_main_v18 (ix2 r a) k = ix2 r k := funext fun d => Fin.ext (by match d with | ⟨0, _⟩ => rfl | ⟨1, _⟩ => rfl)
  have er : ridx_main_v18 (ix2 r a) k = ix2 k a := funext fun d => Fin.ext (by match d with | ⟨0, _⟩ => rfl | ⟨1, _⟩ => rfl)
  rw [el, er]

/-- The second leaf block at (r, a): the leaf row of r through A₂. -/
theorem leaf2_apply (x1 : FVec Ideal S262144x10 .f32) (x3 : FVec Ideal S10x10 .f32) (r : Fin 262144) (a : Fin 10) :
    val_main_v37 (F := Ideal) x1 x3 (ix2 r a)
      = Row.leaf (fun k => x1 (ix2 r k)) (fun k a => val_main_v36 (F := Ideal) x3 (ix2 k a)) a := by
  rw [val_main_v37_apply]
  refine Finset.sum_congr rfl fun k _ => ?_
  have el : lidx_main_v37 (ix2 r a) k = ix2 r k := funext fun d => Fin.ext (by match d with | ⟨0, _⟩ => rfl | ⟨1, _⟩ => rfl)
  have er : ridx_main_v37 (ix2 r a) k = ix2 k a := funext fun d => Fin.ext (by match d with | ⟨0, _⟩ => rfl | ⟨1, _⟩ => rfl)
  rw [el, er]

/-- The cell of the pair (i, j) in row r. -/
theorem cell_apply (x0 x1 : FVec Ideal S262144x10 .f32) (x2 x3 : FVec Ideal S10x10 .f32) (r : Fin 262144) (i j : Fin 10) :
    val_main_v48 (F := Ideal) x0 x1 x2 x3 (ix3 r i j)
      = Row.cell (val_main_v18 (F := Ideal) x0 x2 (ix2 r i)) (val_main_v37 (F := Ideal) x1 x3 (ix2 r j)) := by
  rw [val_main_v48_apply, val_main_v47_apply, val_main_v45_apply, val_main_v44_apply, val_main_cst_11_apply,
    val_main_v46_apply, val_main_cst_12_apply, val_main_v43_apply, val_main_call0_v4_apply, val_main_call0_v3_apply,
    val_main_cst_10_apply, val_main_call0_v2_apply, val_main_call0_v1_apply, val_main_call0_v0_apply, val_main_cst_9_apply,
    val_main_v42_apply, val_main_v40_apply, val_main_v38_apply, val_main_v41_apply, val_main_v39_apply]
  have e0 : idx_main_v38 (idx_main_v40 (ix3 r i j)) = ix2 r i := funext fun d => Fin.ext (by match d with | ⟨0, _⟩ => rfl | ⟨1, _⟩ => rfl)
  have e1 : idx_main_v39 (idx_main_v41 (ix3 r i j)) = ix2 r j := funext fun d => Fin.ext (by match d with | ⟨0, _⟩ => rfl | ⟨1, _⟩ => rfl)
  rw [e0, e1]
  rfl

/-- The comparison of the digit sum of c with q, as a word, over all pairs and sums. -/
theorem one_hot_words : ∀ (c : Fin 100) (q : Fin 19),
    IntOp.cmpi .eq (IntOp.addi (BitVec.ofNat 32 (c.val / 10)) (BitVec.ofNat 32 (c.val % 10))) (BitVec.ofNat 32 q.val)
      = if c.val / 10 + c.val % 10 = q.val then 1#1 else 0#1 := by decide +kernel

/-- The one-hot matrix at (c, q): the indicator of "the digits of c sum to q". -/
theorem one_hot_apply (c : Fin 100) (q : Fin 19) : val_main_v57 (F := Ideal) (ix2 c q) = Row.ind c q := by
  rw [val_main_v57_apply, val_main_call1_v4_apply, val_main_call1_v2_apply, val_main_call1_v0_apply, val_main_v56_apply,
    val_main_v55_apply, val_main_v53_apply, val_main_v50_apply, val_main_v49_apply, val_main_v54_apply, val_main_v52_apply,
    val_main_v51_apply, val_main_call1_v3_apply, val_main_call1_v1_apply]
  refine (congrArg (FloatOps.uitofp (F := Ideal) .f32) (one_hot_words c q)).trans ?_
  unfold Row.ind
  split
  · show (((1#1 : BitVec 1).toNat : ℝ) : EReal) = 1
    norm_num
  · show (((0#1 : BitVec 1).toNat : ℝ) : EReal) = 0
    norm_num

/-- 1 − exp of the digit-sum products, at (r, q). -/
theorem or_apply (x0 x1 : FVec Ideal S262144x10 .f32) (x2 x3 : FVec Ideal S10x10 .f32) (r : Fin 262144) (q : Fin 19) :
    val_main_v62 (F := Ideal) x0 x1 x2 x3 (ix2 r q)
      = Row.smoothOr (Row.leaf (fun k => x0 (ix2 r k)) (fun k a => val_main_v17 (F := Ideal) x2 (ix2 k a)))
          (Row.leaf (fun k => x1 (ix2 r k)) (fun k a => val_main_v36 (F := Ideal) x3 (ix2 k a))) q := by
  rw [val_main_v62_apply, val_main_v61_apply, val_main_cst_13_apply, val_main_v60_apply, val_main_v59_apply]
  unfold Row.smoothOr
  refine congrArg (fun s => Ideal.ofBits .f32 0x3F800000#32 - Ideal.exp s) (Finset.sum_congr rfl fun c _ => ?_)
  have el : idx_main_v58 (lidx_main_v59 (ix2 r q) c) = ix3 r (Row.hiD c) (Row.loD c) := funext fun d => Fin.ext (by
    have hc : c.val < 100 := c.isLt
    match d with
    | ⟨0, _⟩ => show (r.val * 100 + c.val) / 100 = r.val; omega
    | ⟨1, _⟩ => show (r.val * 100 + c.val) / 10 % 10 = c.val / 10; omega
    | ⟨2, _⟩ => show (r.val * 100 + c.val) % 10 = c.val % 10; omega)
  have er : ridx_main_v59 (ix2 r q) c = ix2 c q := funext fun d => Fin.ext (by match d with | ⟨0, _⟩ => rfl | ⟨1, _⟩ => rfl)
  rw [val_main_v58_apply, el, er, cell_apply, leaf1_apply, leaf2_apply, one_hot_apply]

/-- The reference's result at (r, q). -/
theorem out_apply (x0 x1 : FVec Ideal S262144x10 .f32) (x2 x3 : FVec Ideal S10x10 .f32) (r : Fin 262144) (q : Fin 19) :
    val_main_v68 (F := Ideal) x0 x1 x2 x3 (ix2 r q)
      = Row.out (Row.leaf (fun k => x0 (ix2 r k)) (fun k a => val_main_v17 (F := Ideal) x2 (ix2 k a)))
          (Row.leaf (fun k => x1 (ix2 r k)) (fun k a => val_main_v36 (F := Ideal) x3 (ix2 k a))) q := by
  rw [val_main_v68_apply, val_main_v67_apply, val_main_v66_apply, val_main_v64_apply, val_main_v63_apply,
    val_main_cst_14_apply, val_main_v65_apply, val_main_cst_15_apply]
  unfold Row.out
  have es : ∀ k : Fin 19, idx_main_v63 (idx_main_v64 (idx_main_v67 (ix2 r q))) k = ix2 r k := fun k =>
    funext fun d => Fin.ext (by match d with | ⟨0, _⟩ => rfl | ⟨1, _⟩ => rfl)
  rw [Finset.sum_congr rfl fun k _ => by rw [es k, or_apply], or_apply]
  show Ideal.div _ (Ideal.ofBits .f32 0x00000000#32 + _ + _) = _
  rw [Ideal.ofBits_zero_f32, zero_add]
  rfl

end Cert.ReferenceIdeal.RefRow

end
-- ==== Proof.Bridge.lean ====
/-
  The two programs meet.

  Both compute the leaf matrices from the last two arguments by the same host operations (a row's minimum and
  maximum, (W − lo) / (hi − lo + ε₈), the row's sum, a second quotient, a transpose), so the matrices the kernel's
  region finds are the reference's own terms of the same arguments; and the reference's result array is the same
  whole-array function `Whole.G` of the tables and those matrices that the kernel's result array is.
-/
import proofs.«180273_j52192442581023_1_alg».proof.Proof.KValue
import proofs.«180273_j52192442581023_1_alg».proof.Proof.RefRow

set_option maxRecDepth 16384

noncomputable section

namespace Cert.Bridge

open Idealize.ShloMosaic Idealize.ShloMosaic.TcCoe Idealize.SL.Sem Idealize.ShloMosaic.ValueIdx Idealize.ShloMosaic.StableHlo

set_option maxHeartbeats 1000000 in
/-- The first leaf matrix as the kernel's region finds it is the reference's term of the third argument: the host
    operations before the call, composed, are the reference's stages, opened one by one. -/
theorem leaf_matrix1 (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v17 : FVec Ideal ⟨2, ![10, 10]⟩ .f32)
      = Cert.ReferenceIdeal.Read.val_main_v17 (F := Ideal) (m ((c : Thread Cert.KernelIdeal.nD Cert.KernelIdeal.τ).loc Cert.KernelIdeal.main_arg2)) := by
  dsimp only [Cert.KernelIdeal.Gen.V, Cert.KernelIdeal.Gen.hostOps0]
  after_results
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_cst_3 Cert.ReferenceIdeal.Read.val_main_v12 Cert.ReferenceIdeal.Read.val_main_v11 Cert.ReferenceIdeal.Read.val_main_cst_2 Cert.ReferenceIdeal.Read.val_main_v10 Cert.ReferenceIdeal.Read.val_main_v9 Cert.ReferenceIdeal.Read.val_main_v8 Cert.ReferenceIdeal.Read.val_main_v7 Cert.ReferenceIdeal.Read.val_main_cst_1 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_cst_0 Cert.ReferenceIdeal.Read.val_main_v1 Cert.ReferenceIdeal.Read.val_main_v0 Cert.ReferenceIdeal.Read.val_main_cst
  rfl

set_option maxHeartbeats 2000000 in
/-- The second leaf matrix as the kernel's region finds it is the reference's term of the fourth argument. -/
theorem leaf_matrix2 (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v35 : FVec Ideal ⟨2, ![10, 10]⟩ .f32)
      = Cert.ReferenceIdeal.Read.val_main_v36 (F := Ideal) (m ((c : Thread Cert.KernelIdeal.nD Cert.KernelIdeal.τ).loc Cert.KernelIdeal.main_arg3)) := by
  dsimp only [Cert.KernelIdeal.Gen.V, Cert.KernelIdeal.Gen.hostOps0]
  after_results
  unfold Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_cst_8 Cert.ReferenceIdeal.Read.val_main_v31 Cert.ReferenceIdeal.Read.val_main_v30 Cert.ReferenceIdeal.Read.val_main_cst_7 Cert.ReferenceIdeal.Read.val_main_v29 Cert.ReferenceIdeal.Read.val_main_v28 Cert.ReferenceIdeal.Read.val_main_v27 Cert.ReferenceIdeal.Read.val_main_v26 Cert.ReferenceIdeal.Read.val_main_cst_6 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_cst_5 Cert.ReferenceIdeal.Read.val_main_v20 Cert.ReferenceIdeal.Read.val_main_v19 Cert.ReferenceIdeal.Read.val_main_cst_4
  rfl

/-- The reference's result array is `Whole.G` of its tables and its leaf matrices. -/
theorem reference_eq (x0 x1 : FVec Ideal ⟨2, ![262144, 10]⟩ .f32) (x2 x3 : FVec Ideal ⟨2, ![10, 10]⟩ .f32) :
    Cert.ReferenceIdeal.Read.val_main_v68 (F := Ideal) x0 x1 x2 x3
      = Whole.G x0 x1 (Cert.ReferenceIdeal.Read.val_main_v17 (F := Ideal) x2) (Cert.ReferenceIdeal.Read.val_main_v36 (F := Ideal) x3) := by
  funext i
  obtain ⟨r, q, rfl⟩ : ∃ (r : Fin 262144) (q : Fin 19), i = ix2 r q := ⟨i 0, i 1, eq_ix2 i⟩
  exact Cert.ReferenceIdeal.RefRow.out_apply x0 x1 x2 x3 r q

end Cert.Bridge

end
-- ==== Proof.lean ====
/-
  The certificate of the min-AND / smooth-OR digit-sum kernel against its jnp reference.

  Both programs compute, for each of 262144 rows, the two leaf rows l₁ = p₁ · A₁ and l₂ = p₂ · A₂ (A₁, A₂ the row-normalised
  min-max rescalings of W₁, W₂, transposed), for each digit pair (i, j) the cell log (1 − clamp (min (l₁ i) (l₂ j)) + ε₁₂),
  for each sum q = i + j the value 1 − exp of the sum of its cells, and the row normalised by its sum plus ε₉. The
  kernel spreads the leaf rows over the hundred pairs and groups the cells by digit sum with three constant 0/1 matrices
  and four matrix products, 4096 rows at a grid point; the reference broadcasts, takes the minimum over a 10 × 10 grid,
  flattens, and multiplies by a one-hot matrix it builds from iotas. At the ideal values a product with a 0/1 selector
  column is the selected entry (0 · x = 0 for every extended real), so both are the one function `Whole.G`.

  The frames of the two kernel programs are the generated ones; the reference's frame is its generated run with the
  result dropped; the ideal pass rewrote nothing, so `preserves` is trivial; `algebraic` sets the kernel's run
  (`Blocks.run`) beside the reference's (`Value.run`, read by `Bridge.reference_eq`).
-/
import proofs.«180273_j52192442581023_1_alg».proof.Defs
import proofs.«180273_j52192442581023_1_alg».proof.Proof.Gen.Kernel
import proofs.«180273_j52192442581023_1_alg».proof.Proof.Gen.Kernel.Skeleton
import proofs.«180273_j52192442581023_1_alg».proof.Proof.Gen.Kernel.Launch
import proofs.«180273_j52192442581023_1_alg».proof.Proof.Gen.Kernel.Points
import proofs.«180273_j52192442581023_1_alg».proof.Proof.Gen.Kernel.Frame
import proofs.«180273_j52192442581023_1_alg».proof.Proof.Gen.KernelIdeal
import proofs.«180273_j52192442581023_1_alg».proof.Proof.Gen.KernelIdeal.Skeleton
import proofs.«180273_j52192442581023_1_alg».proof.Proof.Gen.KernelIdeal.Launch
import proofs.«180273_j52192442581023_1_alg».proof.Proof.Gen.KernelIdeal.Points
import proofs.«180273_j52192442581023_1_alg».proof.Proof.Gen.KernelIdeal.Frame
import proofs.«180273_j52192442581023_1_alg».proof.Proof.Gen.ReferenceIdeal
import proofs.«180273_j52192442581023_1_alg».proof.Proof.Gen.Pre_finite_inputs
import proofs.«180273_j52192442581023_1_alg».proof.Proof.Gen.KernelIdeal.Value
import proofs.«180273_j52192442581023_1_alg».proof.Proof.Gen.ReferenceIdeal.Run
import proofs.«180273_j52192442581023_1_alg».proof.Proof.Gen.ReferenceIdeal.Read
import proofs.«180273_j52192442581023_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments, both programs end with the result array `Whole.G` of the tables
    and of the leaf matrices (the reference's terms of the last two arguments). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.Bridge.reference_eq, (hagree c).1, (hagree c).2.1, (hagree c).2.2.1,
    (hagree c).2.2.2, Cert.Bridge.leaf_matrix1, Cert.Bridge.leaf_matrix2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
